-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![1, 0] · slices_S2x1600000_S1x1600000_1_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 58
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S256x128, .bf16⟩
  | .hbm, ⟨55, _⟩ => ⟨S128, .f32⟩
  | .hbm, ⟨56, _⟩ => ⟨S1x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  bitsLt_bf16_f32 : FTy.bits .bf16 < FTy.bits .f32
  concatenates_S128x128_S128x128_S256x128_d0 : Shape.Concatenates [S128x128, S128x128] S256x128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v7) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostTerms.lean ====
/-
  The arrays the kernel's region is launched on, as functions of the program's arguments.

  An edge list `e : i32[2, 1600000]` gives each edge a destination node (`rows e`) and a source node (`cols e`); the other terms
  are functions of those two vectors.  The source is
  wrapped (a negative one gains the number of nodes) and tested against the range of nodes; the features' rows are gathered at
  the wrapped sources, a row whose source fails the test replaced by a fill value (`taken`).  Scatter-adding the taken rows at
  the destinations gives the aggregate rows, scatter-adding ones gives the in-degrees; the region multiplies by the
  reciprocal of the degree clamped below by one, stored as a column.  The two weight matrices are transposed and stacked, the
  two biases summed into one row.
-/
import proofs.«412770_j80290118631498_3_alg».proof.Proof.Gen.KernelIdeal

noncomputable section

namespace Cert.KernelIdeal.HostTerms

open Cert.KernelIdeal Cert.KernelIdeal.Gen Idealize.ShloMosaic

variable {F : FTy → Type} [FloatOps F]

/-- Each edge's destination node: row 0 of the edge list. -/
def rows (e : IVec S2x1600000 32) : IVec S1600000 32 :=
  shapeCast S1600000 (extractStridedSlice S1x1600000 ![0, 0] e slices_S2x1600000_S1x1600000_0_0) shapeCasts_S1x1600000_S1600000

/-- Each edge's source node: row 1 of the edge list. -/
def cols (e : IVec S2x1600000 32) : IVec S1600000 32 :=
  shapeCast S1600000 (extractStridedSlice S1x1600000 ![1, 0] e slices_S2x1600000_S1x1600000_1_0) shapeCasts_S1x1600000_S1600000

/-- The source wrapped: a negative one gains the number of nodes. -/
def wrapped (col : IVec S1600000 32) : IVec S1600000 32 :=
  select (cmpi .slt col (broadcastInDim S1600000 ![] bcast_S_S1600000 (constantI S_ 32 0#32)))
    (addi col (broadcastInDim S1600000 ![] bcast_S_S1600000 (constantI S_ 32 100000#32))) col

/-- The wrapped sources as a column of start indices. -/
def starts (col : IVec S1600000 32) : IVec S1600000x1 32 :=
  broadcastInDim S1600000x1 ![0] bcast_S1600000_S1600000x1_0 (wrapped col)

/-- Per edge: does the wrapped source lie in `[0, 99999]`? -/
def inRange (col : IVec S1600000 32) : IVec S1600000 1 :=
  Host.reduce IntOp.andi
    (andi (cmpi .sge (starts col) (broadcastInDim S1600000x1 ![] bcast_S_S1600000x1 (constantI S_ 32 0#32)))
      (cmpi .sle (starts col) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The feature rows at the wrapped sources. -/
def gathered (x : FVec F S100000x128 .f32) (col : IVec S1600000 32) : FVec F S1600000x128 .f32 :=
  Host.gather gather_S100000x128_S1600000x1_S1600000x128_1_0_n_n_0_1_1128 x (starts col)

/-- The same with the rows of out-of-range sources replaced by the fill value. -/
def taken (x : FVec F S100000x128 .f32) (col : IVec S1600000 32) : FVec F S1600000x128 .f32 :=
  select (broadcastInDim S1600000x128 ![0] bcast_S1600000_S1600000x128_0 (inRange col)) (gathered x col)
    (broadcastInDim S1600000x128 ![] bcast_S_S1600000x128 (constant S_ .f32 0x7FC00000#32))

/-- The aggregate rows: the per-edge rows `g` added up at the edges' destinations. -/
def aggOf (g : FVec F S1600000x128 .f32) (row : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row) g

/-- The in-degrees: a one per edge added up at the edges' destinations. -/
def degOf (row : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 row)
    (broadcastInDim S1600000 ![] bcast_S_S1600000 (constant S_ .f32 0x3F800000#32))

/-- The reciprocal of the degree clamped below by one, as a column. -/
def invDeg (row : IVec S1600000 32) : FVec F S100000x1 .f32 :=
  shapeCast S100000x1
    (Host.divf (broadcastInDim S100000 ![] bcast_S_S100000 (constant S_ .f32 0x3F800000#32))
      (maximumf (degOf (F := F) row) (broadcastInDim S100000 ![] bcast_S_S100000 (constant S_ .f32 0x3F800000#32))))
    shapeCasts_S100000_S100000x1

/-- The two weight matrices, transposed and stacked: 256 rows. -/
def wcat (wl wr : FVec F S128x128 .f32) : FVec F S256x128 .bf16 :=
  concatenate S256x128 0
    [⟨S128x128, truncf .bf16 (transpose S128x128 [1, 0] wl transposes_S128x128_S128x128_1_0) bitsLt_bf16_f32⟩,
     ⟨S128x128, truncf .bf16 (transpose S128x128 [1, 0] wr transposes_S128x128_S128x128_1_0) bitsLt_bf16_f32⟩]
    concatenates_S128x128_S128x128_S256x128_d0

/-- The two biases summed, as one row. -/
def bsum (bl br : FVec F S128 .f32) : FVec F S1x128 .f32 :=
  shapeCast S1x128 (addf bl br) shapeCasts_S128_S1x128

end Cert.KernelIdeal.HostTerms

end
-- ==== Proof.HostArrays.lean ====
/-
  The arrays the region finds, read off the host operations that run before it.  The operations come in three stretches
  (the edge list's two rows; the take of the feature rows; the aggregate, the degree's reciprocal, the stacked weights and
  the summed bias), and each array is read from the stretch that writes it, over whatever the earlier stretches left.
-/
import proofs.«412770_j80290118631498_3_alg».proof.Proof.Gen.KernelIdeal.Frame
import proofs.«412770_j80290118631498_3_alg».proof.Proof.HostTerms
import Idealize.ShloMosaic.Lib.StableHlo.Run
import Idealize.ShloMosaic.Lib.Pipeline.Frame

noncomputable section

namespace Cert.KernelIdeal.HostArrays

open Cert.KernelIdeal Cert.KernelIdeal.Gen Cert.KernelIdeal.HostTerms Idealize.ShloMosaic Idealize.ShloMosaic.TcCoe
  Idealize.SL.Sem Idealize.ShloMosaic.StableHlo

variable {F : FTy → Type} [FloatOps F]

/-! ## One stretch at a time, over any contents `W` before it -/

section Stretches
variable (W : Valuation τ sig (Elt F))

theorem s0_rows : (StableHlo.after (hostOps0 (F := F)) W (Proc.devRef .tc main_v1) : IVec S1600000 32)
    = rows (W (Proc.devRef .tc main_arg1)) := by
  dsimp only [Gen.hostOps0]; after_results; rfl

theorem s0_cols : (StableHlo.after (hostOps0 (F := F)) W (Proc.devRef .tc main_v3) : IVec S1600000 32)
    = cols (W (Proc.devRef .tc main_arg1)) := by
  dsimp only [Gen.hostOps0]; after_results; rfl

theorem s0_arg0 : StableHlo.after (hostOps0 (F := F)) W (Proc.devRef .tc main_arg0) = W (Proc.devRef .tc main_arg0) := by
  dsimp only [Gen.hostOps0]; after_results
theorem s0_arg2 : StableHlo.after (hostOps0 (F := F)) W (Proc.devRef .tc main_arg2) = W (Proc.devRef .tc main_arg2) := by
  dsimp only [Gen.hostOps0]; after_results
theorem s0_arg3 : StableHlo.after (hostOps0 (F := F)) W (Proc.devRef .tc main_arg3) = W (Proc.devRef .tc main_arg3) := by
  dsimp only [Gen.hostOps0]; after_results
theorem s0_arg4 : StableHlo.after (hostOps0 (F := F)) W (Proc.devRef .tc main_arg4) = W (Proc.devRef .tc main_arg4) := by
  dsimp only [Gen.hostOps0]; after_results
theorem s0_arg5 : StableHlo.after (hostOps0 (F := F)) W (Proc.devRef .tc main_arg5) = W (Proc.devRef .tc main_arg5) := by
  dsimp only [Gen.hostOps0]; after_results

/-- The take's operations in five runs: the wrapped sources as a column; the range test; its reduction to a mask; the
    gather; the select. -/
abbrev tkA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v3 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v3 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v3 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]
abbrev tkB : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi ]
abbrev tkC : List (HloOp τ sig (Elt F)) :=
  [ StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]
abbrev tkD : List (HloOp τ sig (Elt F)) :=
  [ StableHlo.TRef.binary (.of main_arg0 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i) ]
abbrev tkE : List (HloOp τ sig (Elt F)) :=
  [ StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v4 : StableHlo.TRef sig ⟨S1600000x128, .f32⟩) select ]

theorem take_split : (hostOps0_1 (F := F)) = tkA ++ (tkB ++ (tkC ++ (tkD ++ tkE))) := rfl

theorem tkA_starts : (StableHlo.after (tkA (F := F)) W (Proc.devRef .tc main_call0_v5) : IVec S1600000x1 32)
    = starts (W (Proc.devRef .tc main_v3)) := by
  dsimp only [tkA]; after_results; rfl
theorem tkA_arg0 : StableHlo.after (tkA (F := F)) W (Proc.devRef .tc main_arg0) = W (Proc.devRef .tc main_arg0) := by
  dsimp only [tkA]; after_results

theorem tkB_test : (StableHlo.after (tkB (F := F)) W (Proc.devRef .tc main_call0_v11) : IVec S1600000x1 1)
    = andi (cmpi .sge (W (Proc.devRef .tc main_call0_v5)) (broadcastInDim S1600000x1 ![] bcast_S_S1600000x1 (constantI S_ 32 0#32)))
        (cmpi .sle (W (Proc.devRef .tc main_call0_v5)) (broadcastInDim S1600000x1 ![0, 1] bcast_S1x1_S1600000x1_0_1
          (broadcastInDim S1x1 ![1] bcast_S1_S1x1_1 (constantI S1 32 99999#32)))) := by
  dsimp only [tkB]; after_results; rfl
theorem tkB_v5 : StableHlo.after (tkB (F := F)) W (Proc.devRef .tc main_call0_v5) = W (Proc.devRef .tc main_call0_v5) := by
  dsimp only [tkB]; after_results
theorem tkB_arg0 : StableHlo.after (tkB (F := F)) W (Proc.devRef .tc main_arg0) = W (Proc.devRef .tc main_arg0) := by
  dsimp only [tkB]; after_results

theorem tkC_mask : (StableHlo.after (tkC (F := F)) W (Proc.devRef .tc main_call0_v12) : IVec S1600000 1)
    = Host.reduce IntOp.andi (W (Proc.devRef .tc main_call0_v11)) (constantI S_ 1 1#1) reducesTo_S1600000x1_S1600000_d1 h_S_ := by
  dsimp only [tkC]; after_results; simp only [cast_eq]
theorem tkC_v5 : StableHlo.after (tkC (F := F)) W (Proc.devRef .tc main_call0_v5) = W (Proc.devRef .tc main_call0_v5) := by
  dsimp only [tkC]; after_results
theorem tkC_arg0 : StableHlo.after (tkC (F := F)) W (Proc.devRef .tc main_arg0) = W (Proc.devRef .tc main_arg0) := by
  dsimp only [tkC]; after_results

theorem tkD_gather : (StableHlo.after (tkD (F := F)) W (Proc.devRef .tc main_call0_v13) : FVec F S1600000x128 .f32)
    = Host.gather gather_S100000x128_S1600000x1_S1600000x128_1_0_n_n_0_1_1128 (W (Proc.devRef .tc main_arg0))
        (W (Proc.devRef .tc main_call0_v5)) := by
  dsimp only [tkD]; after_results; simp only [cast_eq]
theorem tkD_v12 : StableHlo.after (tkD (F := F)) W (Proc.devRef .tc main_call0_v12) = W (Proc.devRef .tc main_call0_v12) := by
  dsimp only [tkD]; after_results

theorem tkE_select : (StableHlo.after (tkE (F := F)) W (Proc.devRef .tc main_v4) : FVec F S1600000x128 .f32)
    = select (broadcastInDim S1600000x128 ![0] bcast_S1600000_S1600000x128_0 (W (Proc.devRef .tc main_call0_v12)))
        (W (Proc.devRef .tc main_call0_v13))
        (broadcastInDim S1600000x128 ![] bcast_S_S1600000x128 (constant S_ .f32 0x7FC00000#32)) := by
  dsimp only [tkE]; after_results; rfl

theorem s1_taken : (StableHlo.after (hostOps0_1 (F := F)) W (Proc.devRef .tc main_v4) : FVec F S1600000x128 .f32)
    = taken (W (Proc.devRef .tc main_arg0)) (W (Proc.devRef .tc main_v3)) := by
  rw [take_split, StableHlo.after_append, StableHlo.after_append, StableHlo.after_append, StableHlo.after_append,
    tkE_select, tkD_gather, tkD_v12, tkC_mask, tkC_v5, tkC_arg0, tkB_test, tkB_v5, tkB_arg0, tkA_starts, tkA_arg0]
  rfl

theorem s1_v1 : StableHlo.after (hostOps0_1 (F := F)) W (Proc.devRef .tc main_v1) = W (Proc.devRef .tc main_v1) := by
  dsimp only [Gen.hostOps0_1]; after_results
theorem s1_arg0 : StableHlo.after (hostOps0_1 (F := F)) W (Proc.devRef .tc main_arg0) = W (Proc.devRef .tc main_arg0) := by
  dsimp only [Gen.hostOps0_1]; after_results
theorem s1_arg2 : StableHlo.after (hostOps0_1 (F := F)) W (Proc.devRef .tc main_arg2) = W (Proc.devRef .tc main_arg2) := by
  dsimp only [Gen.hostOps0_1]; after_results
theorem s1_arg3 : StableHlo.after (hostOps0_1 (F := F)) W (Proc.devRef .tc main_arg3) = W (Proc.devRef .tc main_arg3) := by
  dsimp only [Gen.hostOps0_1]; after_results
theorem s1_arg4 : StableHlo.after (hostOps0_1 (F := F)) W (Proc.devRef .tc main_arg4) = W (Proc.devRef .tc main_arg4) := by
  dsimp only [Gen.hostOps0_1]; after_results
theorem s1_arg5 : StableHlo.after (hostOps0_1 (F := F)) W (Proc.devRef .tc main_arg5) = W (Proc.devRef .tc main_arg5) := by
  dsimp only [Gen.hostOps0_1]; after_results

theorem s2_agg : (StableHlo.after (hostOps0_2 (F := F)) W (Proc.devRef .tc main_v7) : FVec F S100000x128 .f32)
    = aggOf (W (Proc.devRef .tc main_v4)) (W (Proc.devRef .tc main_v1)) := by
  dsimp only [Gen.hostOps0_2]; after_results; rfl

theorem s2_invDeg : (StableHlo.after (hostOps0_2 (F := F)) W (Proc.devRef .tc main_v16) : FVec F S100000x1 .f32)
    = invDeg (W (Proc.devRef .tc main_v1)) := by
  dsimp only [Gen.hostOps0_2]; after_results; rfl

theorem s2_wcat : (StableHlo.after (hostOps0_2 (F := F)) W (Proc.devRef .tc main_v21) : FVec F S256x128 .bf16)
    = wcat (W (Proc.devRef .tc main_arg2)) (W (Proc.devRef .tc main_arg4)) := by
  dsimp only [Gen.hostOps0_2]; after_results; rfl

theorem s2_bsum : (StableHlo.after (hostOps0_2 (F := F)) W (Proc.devRef .tc main_v23) : FVec F S1x128 .f32)
    = bsum (W (Proc.devRef .tc main_arg3)) (W (Proc.devRef .tc main_arg5)) := by
  dsimp only [Gen.hostOps0_2]; after_results; rfl

end Stretches

/-! ## The region's arrays -/

variable (m : (ℓ : Loc nD τ sig) → Buf (Elt F) ℓ)

/-- The contents at the region's entry are the three stretches run in turn. -/
theorem V_stretches (c : Dev nD) (b : Ref sig .tc) :
    V m c b = StableHlo.after hostOps0_2 (StableHlo.after hostOps0_1 (StableHlo.after hostOps0 (fun b => m (c, b)))) b := by
  show StableHlo.after (List.flatten [hostOps0, hostOps0_1, hostOps0_2]) (fun b => m (c, b)) b = _
  rw [List.flatten_cons, List.flatten_cons, List.flatten_cons, List.flatten_nil, List.append_nil,
    StableHlo.after_append, StableHlo.after_append]

/-- The aggregate rows the region reads: the taken feature rows added up at the edges' destinations. -/
theorem V_agg (c : Dev nD) : (V m c main_v7 : FVec F S100000x128 .f32)
    = aggOf (taken (m ((c : Thread nD τ).loc main_arg0)) (cols (m ((c : Thread nD τ).loc main_arg1))))
        (rows (m ((c : Thread nD τ).loc main_arg1))) := by
  rw [V_stretches, s2_agg, s1_taken, s1_v1, s0_rows, s0_cols, s0_arg0]

/-- The column of reciprocal clamped degrees the region reads. -/
theorem V_invDeg (c : Dev nD) : (V m c main_v16 : FVec F S100000x1 .f32)
    = invDeg (rows (m ((c : Thread nD τ).loc main_arg1))) := by
  rw [V_stretches, s2_invDeg, s1_v1, s0_rows]

/-- The stacked transposed weights the region reads. -/
theorem V_wcat (c : Dev nD) : (V m c main_v21 : FVec F S256x128 .bf16)
    = wcat (m ((c : Thread nD τ).loc main_arg2)) (m ((c : Thread nD τ).loc main_arg4)) := by
  rw [V_stretches, s2_wcat, s1_arg2, s1_arg4, s0_arg2, s0_arg4]

/-- The summed biases the region reads. -/
theorem V_bsum (c : Dev nD) : (V m c main_v23 : FVec F S1x128 .f32)
    = bsum (m ((c : Thread nD τ).loc main_arg3)) (m ((c : Thread nD τ).loc main_arg5)) := by
  rw [V_stretches, s2_bsum, s1_arg3, s1_arg5, s0_arg3, s0_arg5]

end Cert.KernelIdeal.HostArrays

end
-- ==== Proof.HostRead.lean ====
/-
  The host-side arrays read at an index, at the extended reals: the reciprocal-degree column at a node is one over the
  node's degree clamped below by one; the stacked weights' first 128 rows are the first map's columns and the last 128 the
  second's; the bias row is the sum of the two biases.
-/
import proofs.«412770_j80290118631498_3_alg».proof.Proof.HostTerms
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HostRead

open Cert.KernelIdeal Cert.KernelIdeal.Gen Cert.KernelIdeal.HostTerms Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reciprocal-degree column at node `r`. -/
theorem invDeg_apply (row : IVec S1600000 32) (r : Fin 100000) :
    invDeg (F := Ideal) row (ix2 r (0 : Fin 1)) = Ideal.div 1 (max (degOf (F := Ideal) row (ix1 r)) 1) := by
  unfold invDeg
  rw [shapeCast_a_a1_apply, hostDivf_apply, maximumf_apply, broadcastInDim_scalar_apply, constant_apply,
    Ideal.ofBits_one_f32]

/-- Row `k < 128` of the stacked weights is column `k` of the first map. -/
theorem wcat_top (wl wr : FVec Ideal S128x128 .f32) (k q : Fin 128) :
    wcat wl wr (ix2 (⟨k.val, by omega⟩ : Fin 256) q) = wl (ix2 q k) := by
  unfold wcat
  refine (concatenate_pair_apply_left (0 : Fin S256x128.rank) _ _ concatenates_S128x128_S128x128_S256x128_d0
    (ix2 (⟨k.val, by omega⟩ : Fin 256) q) rfl (ix2 k q) (fun b => ?_)).trans ?_
  · match b with
    | ⟨0, _⟩ => rfl
    | ⟨1, _⟩ => rfl
  · rw [truncf_apply]
    exact transpose_apply [1, 0] wl transposes_S128x128_S128x128_1_0 (ix2 k q) (ix2 q k) (fun b => match b with
      | ⟨0, _⟩ => rfl
      | ⟨1, _⟩ => rfl)

/-- Row `128 + k` of the stacked weights is column `k` of the second map. -/
theorem wcat_bot (wl wr : FVec Ideal S128x128 .f32) (k q : Fin 128) :
    wcat wl wr (ix2 (⟨128 + k.val, by omega⟩ : Fin 256) q) = wr (ix2 q k) := by
  unfold wcat
  refine (concatenate_pair_apply_right (0 : Fin S256x128.rank) _ _ concatenates_S128x128_S128x128_S256x128_d0
    (ix2 (⟨128 + k.val, by omega⟩ : Fin 256) q) rfl rfl (ix2 k q) (fun b hb => ?_) ?_).trans ?_
  · match b with
    | ⟨0, _⟩ => exact absurd rfl hb
    | ⟨1, _⟩ => rfl
  · show k.val + 128 = 128 + k.val
    omega
  · rw [truncf_apply]
    exact transpose_apply [1, 0] wr transposes_S128x128_S128x128_1_0 (ix2 k q) (ix2 q k) (fun b => match b with
      | ⟨0, _⟩ => rfl
      | ⟨1, _⟩ => rfl)

/-- The bias row is the two biases summed. -/
theorem bsum_apply (bl br : FVec Ideal S128 .f32) (q : Fin 128) :
    bsum bl br (ix2 (0 : Fin 1) q) = bl (ix1 q) + br (ix1 q) := by
  unfold bsum
  rw [shapeCast_a_1a_apply, addf_apply]

end Cert.KernelIdeal.HostRead

end
-- ==== Proof.Payload.lean ====
/-
  The region's body at an index.  On a block of 5000 nodes the body scales the aggregate block by the column of reciprocal
  degrees, lays the feature block beside it (a row of 256 entries per node), multiplies by the 256 × 128 stacked weights
  from a zero accumulator, and adds the bias row.  At the extended reals the changes of float format are the identity and
  the matrix product from zero is the plain sum over the 256 entries.
-/
import proofs.«412770_j80290118631498_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The fused rows of a block: the aggregate scaled by the reciprocal degree, beside the features. -/
def fused (v0 : FVec Ideal S5000x128 .f32) (v2 : FVec Ideal S5000x1 .f32) (v7 : FVec Ideal S5000x128 .f32) :
    FVec Ideal S5000x256 .bf16 :=
  concatenate S5000x256 1
    [⟨S5000x128, truncf .bf16 (mulf v0 (broadcastTo S5000x128 v2 broadcasts_S5000x1_S5000x128)) bitsLt_bf16_f32⟩,
     ⟨S5000x128, truncf .bf16 v7 bitsLt_bf16_f32⟩] concatenates_S5000x128_S5000x128_S5000x256_d1

/-- The first 128 entries of a fused row: aggregate times reciprocal degree. -/
theorem fused_left (v0 : FVec Ideal S5000x128 .f32) (v2 : FVec Ideal S5000x1 .f32) (v7 : FVec Ideal S5000x128 .f32)
    (p : Fin 5000) (k : Fin 128) :
    fused v0 v2 v7 (ix2 p (⟨k.val, by omega⟩ : Fin 256)) = v0 (ix2 p k) * v2 (ix2 p (0 : Fin 1)) := by
  unfold fused
  refine (concatenate_pair_apply_left (1 : Fin S5000x256.rank) _ _ concatenates_S5000x128_S5000x128_S5000x256_d1
    (ix2 p (⟨k.val, by omega⟩ : Fin 256)) rfl (ix2 p k) (fun b => ?_)).trans ?_
  · match b with
    | ⟨0, _⟩ => rfl
    | ⟨1, _⟩ => rfl
  · rw [truncf_apply, mulf_apply, broadcastTo_a1_ab_apply]

/-- The last 128 entries of a fused row: the node's own features. -/
theorem fused_right (v0 : FVec Ideal S5000x128 .f32) (v2 : FVec Ideal S5000x1 .f32) (v7 : FVec Ideal S5000x128 .f32)
    (p : Fin 5000) (k : Fin 128) :
    fused v0 v2 v7 (ix2 p (⟨128 + k.val, by omega⟩ : Fin 256)) = v7 (ix2 p k) := by
  unfold fused
  refine (concatenate_pair_apply_right (1 : Fin S5000x256.rank) _ _ concatenates_S5000x128_S5000x128_S5000x256_d1
    (ix2 p (⟨128 + k.val, by omega⟩ : Fin 256)) rfl rfl (ix2 p k) (fun b hb => ?_) ?_).trans ?_
  · match b with
    | ⟨0, _⟩ => rfl
    | ⟨1, _⟩ => exact absurd rfl hb
  · show k.val + 128 = 128 + k.val
    omega
  · rw [truncf_apply]

/-- The body's payload, its identity shape casts dropped. -/
theorem pay_eq (v0 : FVec Ideal S5000x128 .f32) (v2 : FVec Ideal S5000x1 .f32) (v7 : FVec Ideal S5000x128 .f32)
    (v10 : FVec Ideal S256x128 .bf16) (v13 : FVec Ideal S1x128 .f32) :
    k0_pay1 (F := Ideal) v0 v2 v7 v10 v13
      = addf (matmul dot_S5000x256_S256x128_S5000x128_1_0_0_1_n_n none (fused v0 v2 v7) v10 (constant S5000x128 .f32 0x00000000#32))
          (broadcastTo S5000x128 v13 broadcasts_S1x128_S5000x128) := by
  unfold k0_pay1 fused
  rw [shapeCast_self v0, shapeCast_self v2, shapeCast_self v10, shapeCast_self v13]

/-- Which operand entries a product's term reads. -/
theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- THE PAYLOAD AT AN INDEX: the fused row times the stacked weights' column, plus the bias. -/
theorem pay_apply (v0 : FVec Ideal S5000x128 .f32) (v2 : FVec Ideal S5000x1 .f32) (v7 : FVec Ideal S5000x128 .f32)
    (v10 : FVec Ideal S256x128 .bf16) (v13 : FVec Ideal S1x128 .f32) (p : Fin 5000) (q : Fin 128) :
    k0_pay1 (F := Ideal) v0 v2 v7 v10 v13 (ix2 p q)
      = (∑ k : Fin 256, fused v0 v2 v7 (ix2 p k) * v10 (ix2 k q)) + v13 (ix2 (0 : Fin 1) q) := by
  rw [pay_eq]
  show FloatOps.matmul dot_S5000x256_S256x128_S5000x128_1_0_0_1_n_n none (fused v0 v2 v7) v10 (constant S5000x128 .f32 0x00000000#32) (ix2 p q)
      + broadcastTo S5000x128 v13 broadcasts_S1x128_S5000x128 (ix2 p q) = _
  rw [Ideal.matmul_constant_zero_apply, broadcastTo_1b_ab_apply,
    ← Equiv.sum_comp (contrEquiv1 dot_S5000x256_S256x128_S5000x128_1_0_0_1_n_n 256 rfl rfl).symm]
  congr 1
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

end Cert.KernelIdeal.Payload

end
-- ==== Proof.Spec.lean ====
/-
  What both programs compute, and the one law that joins them.

  Node `r` of the graph has an aggregate row `agg r` (the sum of the feature rows of its in-neighbours) and an in-degree
  `deg r`; its mean row is `agg r / max (deg r) 1`.  The layer's output at `(r, c)` is

      (Σ_k mean r k · W_l c k  +  b_l c  +  Σ_k x r k · W_r c k)  +  b_r c.

  The fused form multiplies the row `[agg r · (1 / max (deg r) 1) | x r]` of length 256 with the stacked matrix
  `[W_lᵀ ; W_rᵀ]` and adds `b_l + b_r`.  On the extended reals the two agree: the divisor `max (deg r) 1` is at least one,
  hence not zero, and off zero a quotient IS the product with the reciprocal; a sum over 256 terms is the sum of its two
  halves; and sums commute and associate.  No finiteness is used.
-/
import Idealize.ShloMosaic.PureOps.Ideal
import Idealize.ShloMosaic.Lib.ValueIdx
import Mathlib.Algebra.BigOperators.Fin

noncomputable section

namespace Cert.MeanConv

open Idealize.ShloMosaic Idealize.ShloMosaic.ValueIdx

/-- Off zero, the product with the reciprocal is the quotient. -/
theorem mul_div_one (a d : EReal) (hd : d ≠ 0) : a * Ideal.div 1 d = Ideal.div a d := by
  rw [Ideal.div, if_neg hd, Ideal.div, if_neg hd, one_mul]

/-- A degree clamped below by one is not zero. -/
theorem max_one_ne_zero (x : EReal) : max x 1 ≠ 0 :=
  ne_of_gt (lt_of_lt_of_le zero_lt_one (le_max_right x 1))

/-- The layer's output, index by index, from the aggregate rows, the in-degrees, the features and the two linear maps. -/
def outAt (agg : (⟨2, ![100000, 128]⟩ : Shape).Idx → EReal) (deg : (⟨1, ![100000]⟩ : Shape).Idx → EReal)
    (x : (⟨2, ![100000, 128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal)
    (r : Fin 100000) (c : Fin 128) : EReal :=
  ((∑ k : Fin 128, Ideal.div (agg (ix2 r k)) (max (deg (ix1 r)) 1) * wl (ix2 c k)) + bl (ix1 c)
    + ∑ k : Fin 128, x (ix2 r k) * wr (ix2 c k)) + br (ix1 c)

/-- The same as an array over the nodes and output columns. -/
def out (agg : (⟨2, ![100000, 128]⟩ : Shape).Idx → EReal) (deg : (⟨1, ![100000]⟩ : Shape).Idx → EReal)
    (x : (⟨2, ![100000, 128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal) :
    (⟨2, ![100000, 128]⟩ : Shape).Idx → EReal := fun i => outAt agg deg x wl bl wr br (i 0) (i 1)

theorem out_ix2 (agg : (⟨2, ![100000, 128]⟩ : Shape).Idx → EReal) (deg : (⟨1, ![100000]⟩ : Shape).Idx → EReal)
    (x : (⟨2, ![100000, 128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal)
    (r : Fin 100000) (c : Fin 128) : out agg deg x wl bl wr br (ix2 r c) = outAt agg deg x wl bl wr br r c := rfl

/-- A sum over 256 terms is the sum over the first 128 plus the sum over the last 128. -/
theorem sum_256_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-- THE LAW: one fused product of length 256 plus the summed biases is the two products of length 128 with the biases added
    one at a time, when the first half of the fused row is the aggregate times the reciprocal of a nonzero divisor. -/
theorem fused_row (a x wl wr : Fin 128 → EReal) (d bl br : EReal) (hd : d ≠ 0) (cat wcat : Fin 256 → EReal)
    (hc₁ : ∀ k : Fin 128, cat ⟨k.val, by omega⟩ = a k * Ideal.div 1 d)
    (hc₂ : ∀ k : Fin 128, cat ⟨128 + k.val, by omega⟩ = x k)
    (hw₁ : ∀ k : Fin 128, wcat ⟨k.val, by omega⟩ = wl k)
    (hw₂ : ∀ k : Fin 128, wcat ⟨128 + k.val, by omega⟩ = wr k) :
    (∑ k : Fin 256, cat k * wcat k) + (bl + br)
      = ((∑ k : Fin 128, Ideal.div (a k) d * wl k) + bl + ∑ k : Fin 128, x k * wr k) + br := by
  rw [sum_256_split]
  simp only [hc₁, hc₂, hw₁, hw₂, mul_div_one _ _ hd]
  rw [add_add_add_comm, add_assoc (_ + bl)]

end Cert.MeanConv

end
-- ==== Proof.KernelValue.lean ====
/-
  The kernel's result array.  The region runs over 20 blocks of 5000 nodes; at block `t` it reads rows
  `5000 t … 5000 t + 4999` of the aggregate, of the reciprocal-degree column and of the features, the whole stacked weights
  and the whole bias row, and writes the same rows of the result.  Entry `(p, q)` of what it writes is the fused product
  of the payload; with the host-side arrays read at their indices and the law `MeanConv.fused_row` it is the layer's output
  at node `5000 t + p` and column `q`.  The 20 blocks tile the result array, so the array ends holding the layer's output.
-/
import proofs.«412770_j80290118631498_3_alg».proof.Proof.Gen.KernelIdeal.Value
import proofs.«412770_j80290118631498_3_alg».proof.Proof.HostArrays
import proofs.«412770_j80290118631498_3_alg».proof.Proof.HostRead
import proofs.«412770_j80290118631498_3_alg».proof.Proof.Payload
import proofs.«412770_j80290118631498_3_alg».proof.Proof.Spec

noncomputable section

namespace Cert.KernelIdeal.KValue

open Cert.KernelIdeal Cert.KernelIdeal.Gen Cert.KernelIdeal.HostTerms Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arguments, the region's arrays and the blocks, at their literal types -/

abbrev X (c : Dev nD) : FVec Ideal S100000x128 .f32 := m ((c : Thread nD τ).loc main_arg0)
abbrev E (c : Dev nD) : IVec S2x1600000 32 := m ((c : Thread nD τ).loc main_arg1)
abbrev WL (c : Dev nD) : FVec Ideal S128x128 .f32 := m ((c : Thread nD τ).loc main_arg2)
abbrev BL (c : Dev nD) : FVec Ideal S128 .f32 := m ((c : Thread nD τ).loc main_arg3)
abbrev WR (c : Dev nD) : FVec Ideal S128x128 .f32 := m ((c : Thread nD τ).loc main_arg4)
abbrev BR (c : Dev nD) : FVec Ideal S128 .f32 := m ((c : Thread nD τ).loc main_arg5)

/-- The aggregate rows and the in-degrees as the kernel's host side computes them. -/
abbrev AGG (c : Dev nD) : FVec Ideal S100000x128 .f32 := aggOf (taken (X m c) (cols (E m c))) (rows (E m c))
abbrev DEG (c : Dev nD) : FVec Ideal S100000 .f32 := degOf (rows (E m c))

/-- THE KERNEL'S RESULT: the layer's output of its aggregate rows and in-degrees. -/
def G (c : Dev nD) : S100000x128.Idx → EReal :=
  Cert.MeanConv.out (AGG m c) (DEG m c) (X m c) (WL m c) (BL m c) (WR m c) (BR m c)

abbrev aggBlk (c : Dev nD) (t : Fin cfg0.N) : FVec Ideal S5000x128 .f32 := iblk m c 0 t
abbrev invBlk (c : Dev nD) (t : Fin cfg0.N) : FVec Ideal S5000x1 .f32 := iblk m c 1 t
abbrev xBlk (c : Dev nD) (t : Fin cfg0.N) : FVec Ideal S5000x128 .f32 := iblk m c 2 t
abbrev wBlk (c : Dev nD) (t : Fin cfg0.N) : FVec Ideal S256x128 .bf16 := iblk m c 3 t
abbrev bBlk (c : Dev nD) (t : Fin cfg0.N) : FVec Ideal S1x128 .f32 := iblk m c 4 t

/-! ## Where each window's block sits -/

/-- The printed index maps, decided over the 20 points: the three row-tiled inputs and the output are at block `t`, the
    weights and the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- Node `5000 t + p`: row `p` of block `t`. -/
def node (t : Fin cfg0.N) (p : Fin 5000) : Fin 100000 := ⟨5000 * t.val + p.val, by have := t_lt t; omega⟩

/-! ## A window's block read through its rectangle, for any array -/

theorem read0 (A : FVec Ideal S100000x128 .f32) (t : Fin cfg0.N) (p : Fin 5000) (k : Fin 128) :
    ((cfg0.win 0).blk t).view.read (Elt Ideal) A (ix2 p k) = A (ix2 (node t p) k) := by
  obtain ⟨e0, e1, -⟩ := idx_facts t
  show A (((cfg0.win 0).blk t).view.emb (ix2 p k)) = A (ix2 (node t p) k)
  refine congrArg A (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem read1 (A : FVec Ideal S100000x1 .f32) (t : Fin cfg0.N) (p : Fin 5000) :
    ((cfg0.win 1).blk t).view.read (Elt Ideal) A (ix2 p (0 : Fin 1)) = A (ix2 (node t p) (0 : Fin 1)) := by
  obtain ⟨-, -, e0, e1, -⟩ := idx_facts t
  show A (((cfg0.win 1).blk t).view.emb (ix2 p (0 : Fin 1))) = A (ix2 (node t p) (0 : Fin 1))
  refine congrArg A (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

theorem read2 (A : FVec Ideal S100000x128 .f32) (t : Fin cfg0.N) (p : Fin 5000) (k : Fin 128) :
    ((cfg0.win 2).blk t).view.read (Elt Ideal) A (ix2 p k) = A (ix2 (node t p) k) := by
  obtain ⟨-, -, -, -, e0, e1, -⟩ := idx_facts t
  show A (((cfg0.win 2).blk t).view.emb (ix2 p k)) = A (ix2 (node t p) k)
  refine congrArg A (funext fun a => Fin.ext ?_)
  match a with
  | ⟨0, _⟩ => show win0_2.index t (0 : Fin 2) * 5000 + 1 * p.val = 5000 * t.val + p.val; omega
  | ⟨1, _⟩ => show win0_2.index t (1 : Fin 2) * 128 + 1 * k.val = k.val; omega

theorem read3 (A : FVec Ideal S256x128 .bf16) (t : Fin cfg0.N) (k : Fin 256) (q : Fin 128) :
    ((cfg0.win 3).blk t).view.read (Elt Ideal) A (ix2 k q) = A (ix2 k q) := by
  obtain ⟨-, -, -, -, -, -, e0, e1, -⟩ := idx_facts t
  show A (((cfg0.win 3).blk t).view.emb (ix2 k q)) = A (ix2 k q)
  refine congrArg A (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

theorem read4 (A : FVec Ideal S1x128 .f32) (t : Fin cfg0.N) (q : Fin 128) :
    ((cfg0.win 4).blk t).view.read (Elt Ideal) A (ix2 (0 : Fin 1) q) = A (ix2 (0 : Fin 1) q) := by
  obtain ⟨-, -, -, -, -, -, -, -, e0, e1, -⟩ := idx_facts t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The blocks are the host-side arrays read through the windows -/

theorem aggBlk_eq (c : Dev nD) (t : Fin cfg0.N) :
    aggBlk m c t = ((cfg0.win 0).blk t).view.read (Elt Ideal) (AGG m c) := by
  show iblk m c 0 t = _
  unfold iblk
  exact congrArg (fun A : FVec Ideal S100000x128 .f32 => ((cfg0.win 0).blk t).view.read (Elt Ideal) A) (HostArrays.V_agg m c)

theorem invBlk_eq (c : Dev nD) (t : Fin cfg0.N) :
    invBlk m c t = ((cfg0.win 1).blk t).view.read (Elt Ideal) (invDeg (F := Ideal) (rows (E m c))) := by
  show iblk m c 1 t = _
  unfold iblk
  exact congrArg (fun A : FVec Ideal S100000x1 .f32 => ((cfg0.win 1).blk t).view.read (Elt Ideal) A) (HostArrays.V_invDeg m c)

theorem xBlk_eq (c : Dev nD) (t : Fin cfg0.N) :
    xBlk m c t = ((cfg0.win 2).blk t).view.read (Elt Ideal) (X m c) := by
  show iblk m c 2 t = _
  unfold iblk
  exact congrArg (fun A : FVec Ideal S100000x128 .f32 => ((cfg0.win 2).blk t).view.read (Elt Ideal) A) (V_main_arg0 m c)

theorem wBlk_eq (c : Dev nD) (t : Fin cfg0.N) :
    wBlk m c t = ((cfg0.win 3).blk t).view.read (Elt Ideal) (wcat (WL m c) (WR m c)) := by
  show iblk m c 3 t = _
  unfold iblk
  exact congrArg (fun A : FVec Ideal S256x128 .bf16 => ((cfg0.win 3).blk t).view.read (Elt Ideal) A) (HostArrays.V_wcat m c)

theorem bBlk_eq (c : Dev nD) (t : Fin cfg0.N) :
    bBlk m c t = ((cfg0.win 4).blk t).view.read (Elt Ideal) (bsum (BL m c) (BR m c)) := by
  show iblk m c 4 t = _
  unfold iblk
  exact congrArg (fun A : FVec Ideal S1x128 .f32 => ((cfg0.win 4).blk t).view.read (Elt Ideal) A) (HostArrays.V_bsum m c)

/-! ## The blocks' entries -/

theorem aggBlk_apply (c : Dev nD) (t : Fin cfg0.N) (p : Fin 5000) (k : Fin 128) :
    aggBlk m c t (ix2 p k) = AGG m c (ix2 (node t p) k) := by
  rw [aggBlk_eq, read0]

theorem invBlk_apply (c : Dev nD) (t : Fin cfg0.N) (p : Fin 5000) :
    invBlk m c t (ix2 p (0 : Fin 1)) = Ideal.div 1 (max (DEG m c (ix1 (node t p))) 1) := by
  rw [invBlk_eq, read1, HostRead.invDeg_apply]

theorem xBlk_apply (c : Dev nD) (t : Fin cfg0.N) (p : Fin 5000) (k : Fin 128) :
    xBlk m c t (ix2 p k) = X m c (ix2 (node t p) k) := by
  rw [xBlk_eq, read2]

theorem wBlk_apply (c : Dev nD) (t : Fin cfg0.N) (k : Fin 256) (q : Fin 128) :
    wBlk m c t (ix2 k q) = wcat (WL m c) (WR m c) (ix2 k q) := by
  rw [wBlk_eq, read3]

theorem bBlk_apply (c : Dev nD) (t : Fin cfg0.N) (q : Fin 128) :
    bBlk m c t (ix2 (0 : Fin 1) q) = BL m c (ix1 q) + BR m c (ix1 q) := by
  rw [bBlk_eq, read4, HostRead.bsum_apply]

/-! ## What a point writes -/

/-- Entry `(p, q)` of the body's result at block `t` is the layer's output at node `5000 t + p`, column `q`. -/
theorem point_eq (c : Dev nD) (t : Fin cfg0.N) (p : Fin 5000) (q : Fin 128) :
    k0_pay1 (F := Ideal) (aggBlk m c t) (invBlk m c t) (xBlk m c t) (wBlk m c t) (bBlk m c t) (ix2 p q)
      = G m c (ix2 (node t p) q) := by
  refine (Payload.pay_apply (aggBlk m c t) (invBlk m c t) (xBlk m c t) (wBlk m c t) (bBlk m c t) p q).trans ?_
  rw [bBlk_apply]
  unfold G
  rw [Cert.MeanConv.out_ix2]
  unfold Cert.MeanConv.outAt
  exact Cert.MeanConv.fused_row (fun k => AGG m c (ix2 (node t p) k)) (fun k => X m c (ix2 (node t p) k))
    (fun k => WL m c (ix2 q k)) (fun k => WR m c (ix2 q k)) (max (DEG m c (ix1 (node t p))) 1) (BL m c (ix1 q)) (BR m c (ix1 q))
    (Cert.MeanConv.max_one_ne_zero _)
    (fun k => Payload.fused (aggBlk m c t) (invBlk m c t) (xBlk m c t) (ix2 p k)) (fun k => wBlk m c t (ix2 k q))
    (fun k => by rw [Payload.fused_left, aggBlk_apply, invBlk_apply])
    (fun k => by rw [Payload.fused_right, xBlk_apply])
    (fun k => by rw [wBlk_apply, HostRead.wcat_top])
    (fun k => by rw [wBlk_apply, HostRead.wcat_bot])

/-- Rows `5000 t … 5000 t + 4999` of an array over the nodes, as a block. -/
def blockRows (Gf : S100000x128.Idx → EReal) (t : Fin cfg0.N) : S5000x128.Idx → EReal :=
  fun j => Gf (ix2 (node t (j 0)) (j 1))

theorem blockRows_ix2 (Gf : S100000x128.Idx → EReal) (t : Fin cfg0.N) (p : Fin 5000) (q : Fin 128) :
    blockRows Gf t (ix2 p q) = Gf (ix2 (node t p) q) := rfl

/-- Those rows are the array read through the output window's block `t`. -/
theorem cut_read (Gf : S100000x128.Idx → EReal) (t : Fin cfg0.N) :
    (cfg0.win 5).cut (grid0.coords t) (blockRows Gf t) = ((cfg0.win 5).blk t).view.read (Elt Ideal) Gf := by
  obtain ⟨-, -, -, -, -, -, -, -, -, -, e0, e1⟩ := idx_facts t
  funext j
  show Gf (ix2 (node t (j 0)) (j 1)) = Gf (((cfg0.win 5).blk t).view.emb j)
  refine congrArg Gf (funext fun a => Fin.ext ?_)
  match a with
  | ⟨0, _⟩ => show 5000 * t.val + (j 0).val = win0_5.index t (0 : Fin 2) * 5000 + 1 * (j 0).val; omega
  | ⟨1, _⟩ => show (j 1).val = win0_5.index t (1 : Fin 2) * 128 + 1 * (j 1).val; omega

/-- The body's result at block `t` is rows `5000 t …` of the layer's output. -/
theorem body_eq (c : Dev nD) (t : Fin cfg0.N) :
    k0_pay1 (F := Ideal) (aggBlk m c t) (invBlk m c t) (xBlk m c t) (wBlk m c t) (bBlk m c t)
      = blockRows (G m c) t := by
  funext j
  obtain ⟨p, q, rfl⟩ : ∃ (p : Fin 5000) (q : Fin 128), j = ix2 p q := ⟨j 0, j 1, eq_ix2 j⟩
  rw [blockRows_ix2]
  exact point_eq m c t p q

/-- WHAT POINT `t` WRITES BACK is block `t` of the layer's output. -/
theorem flushed5_eq (c : Dev nD) (t : Fin cfg0.N) :
    (dats m 0 c).flushed 5 t = ((cfg0.win 5).blk t).view.read (Elt Ideal) (G m c) := by
  rw [Value.flushed5]
  unfold out0_5
  rw [View.canon_unit_zero hz]
  simp only [View.ld_unit_zero (S := S5000x128) hz, View.ld_unit_zero (S := S5000x1) hz,
    View.ld_unit_zero (S := S256x128) hz, View.ld_unit_zero (S := S1x128) hz]
  show (cfg0.win 5).cut (grid0.coords t)
      (k0_pay1 (F := Ideal) (aggBlk m c t) (invBlk m c t) (xBlk m c t) (wBlk m c t) (bBlk m c t)) = _
  rw [body_eq]
  exact cut_read (G m c) t

/-! ## The blocks tile the result -/

theorem mem_blk5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Node `r` lies in block `r / 5000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, -, -, e0, e1⟩ := idx_facts ⟨(i 0).val / 5000, hN⟩
  refine ⟨⟨(i 0).val / 5000, hN⟩, flush0_5 _, ?_⟩
  rw [mem_blk5]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    have e0' : win0_5.index ⟨(i 0).val / 5000, hN⟩ (0 : Fin 2) = (i 0).val / 5000 := e0
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

/-- THE RESULT ARRAY after the run is the layer's output. -/
theorem final5 (c : Dev nD) : (dats m 0 c).arrAt 5 cfg0.N = G m c :=
  (dats m 0 c).arrAt_eq_of_cover 5 (G m c) (fun t _ => flushed5_eq m c t) cover5

/-! ## The run -/

/-- Every execution of the kernel's program terminates with the result array at the layer's output and the arguments
    unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2⟩) (Value.run_blocks m ρ)

end Cert.KernelIdeal.KValue

end
-- ==== Proof.RefValue.lean ====
/-
  The reference computes the layer's output: its result array, read index by index, is `MeanConv.out` of its own aggregate
  rows (the scatter-add of the gathered feature rows) and in-degrees (the scatter-add of ones), the features and the two
  linear maps.  Each matrix product is a sum over the 128 features, each bias a row broadcast down the nodes, the mean a
  quotient by the degree clamped below by one (the literal `1.0` is the extended real one).
-/
import proofs.«412770_j80290118631498_3_alg».proof.Proof.Gen.ReferenceIdeal.Read
import proofs.«412770_j80290118631498_3_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

/-- The row and feature a product's left factor reads. -/
theorem lidx24 (r : Fin 100000) (c k : Fin 128) : lidx_main_v24 (ix2 r c) k = ix2 r k :=
  funext fun a => match a with | ⟨0, _⟩ => rfl | ⟨1, _⟩ => rfl
theorem lidx29 (r : Fin 100000) (c k : Fin 128) : lidx_main_v29 (ix2 r c) k = ix2 r k :=
  funext fun a => match a with | ⟨0, _⟩ => rfl | ⟨1, _⟩ => rfl
/-- A transposed weight at (feature, output column) is the weight at (output column, feature). -/
theorem ridx24 (r : Fin 100000) (c k : Fin 128) : idx_main_v23 (ridx_main_v24 (ix2 r c) k) = ix2 c k :=
  funext fun a => match a with | ⟨0, _⟩ => rfl | ⟨1, _⟩ => rfl
theorem ridx29 (r : Fin 100000) (c k : Fin 128) : idx_main_v28 (ridx_main_v29 (ix2 r c) k) = ix2 c k :=
  funext fun a => match a with | ⟨0, _⟩ => rfl | ⟨1, _⟩ => rfl
/-- The degree a mean's divisor reads is the row's. -/
theorem didx (r : Fin 100000) (k : Fin 128) : idx_main_v20 (idx_main_v21 (ix2 r k)) = ix1 r :=
  funext fun a => match a with | ⟨0, _⟩ => rfl
/-- A bias broadcast down the nodes reads the output column's entry. -/
theorem bidx26 (r : Fin 100000) (c : Fin 128) : idx_main_v25 (idx_main_v26 (ix2 r c)) = ix1 c :=
  funext fun a => match a with | ⟨0, _⟩ => rfl
theorem bidx32 (r : Fin 100000) (c : Fin 128) : idx_main_v31 (idx_main_v32 (ix2 r c)) = ix1 c :=
  funext fun a => match a with | ⟨0, _⟩ => rfl

/-- One term of the mean's product: the aggregate over the clamped degree, times the weight. -/
theorem mean_term (x0 : FVec Ideal S100000x128 .f32) (x1 : IVec S2x1600000 32) (x2 : FVec Ideal S128x128 .f32)
    (r : Fin 100000) (c k : Fin 128) :
    val_main_v22 (F := Ideal) x0 x1 (ix2 r k) * val_main_v23 (F := Ideal) x2 (ridx_main_v24 (ix2 r c) k)
      = Ideal.div (val_main_v13 (F := Ideal) x0 x1 (ix2 r k)) (max (val_main_v17 (F := Ideal) x1 (ix1 r)) 1) * x2 (ix2 c k) := by
  rw [val_main_v23_apply, ridx24, val_main_v22_apply, val_main_v21_apply, val_main_v20_apply, didx, val_main_v19_apply,
    val_main_v18_apply, val_main_cst_3_apply, Ideal.hostDivf_def, Ideal.maximumf_def, Ideal.ofBits_def, Ideal.ofBits_one_f32]

/-- One term of the node's own product: the feature times the weight. -/
theorem self_term (x0 : FVec Ideal S100000x128 .f32) (x4 : FVec Ideal S128x128 .f32) (r : Fin 100000) (c k : Fin 128) :
    x0 (ix2 r k) * val_main_v28 (F := Ideal) x4 (ridx_main_v29 (ix2 r c) k) = x0 (ix2 r k) * x4 (ix2 c k) := by
  rw [val_main_v28_apply, ridx29]

/-- THE REFERENCE'S RESULT is the layer's output of its aggregate rows and in-degrees. -/
theorem result_eq (x0 : FVec Ideal S100000x128 .f32) (x1 : IVec S2x1600000 32) (x2 : FVec Ideal S128x128 .f32)
    (x3 : FVec Ideal S128 .f32) (x4 : FVec Ideal S128x128 .f32) (x5 : FVec Ideal S128 .f32) :
    val_main_v33 (F := Ideal) x0 x1 x2 x3 x4 x5
      = Cert.MeanConv.out (val_main_v13 (F := Ideal) x0 x1) (val_main_v17 (F := Ideal) x1) x0 x2 x3 x4 x5 := by
  funext i
  obtain ⟨r, c, rfl⟩ : ∃ (r : Fin 100000) (c : Fin 128), i = ix2 r c := ⟨i 0, i 1, eq_ix2 i⟩
  rw [val_main_v33_apply]
  rw [val_main_v30_apply]
  rw [val_main_v27_apply]
  rw [val_main_v24_apply]
  rw [val_main_v29_apply]
  rw [val_main_v26_apply]
  rw [val_main_v25_apply]
  rw [val_main_v32_apply]
  rw [val_main_v31_apply]
  rw [bidx26, bidx32]
  rw [Finset.sum_congr rfl (fun k _ => (congrArg (fun j => val_main_v22 (F := Ideal) x0 x1 j * val_main_v23 (F := Ideal) x2 (ridx_main_v24 (ix2 r c) k)) (lidx24 r c k)).trans (mean_term x0 x1 x2 r c k))]
  rw [Finset.sum_congr rfl (fun k _ => (congrArg (fun j => x0 j * val_main_v28 (F := Ideal) x4 (ridx_main_v29 (ix2 r c) k)) (lidx29 r c k)).trans (self_term x0 x4 r c k))]
  rw [Cert.MeanConv.out_ix2]
  unfold Cert.MeanConv.outAt
  rfl

end Cert.ReferenceIdeal.RefValue

end
-- ==== Proof.Take.lean ====
/-
  The kernel gathers feature rows by `take` in fill mode: a source index is first wrapped (a negative one has the number
  of nodes added), then tested against `[0, 99999]`; rows whose wrapped index fails the test are replaced by a fill value.
  When every source index lies in `[-100000, 100000)` the wrapped index always passes, the test's mask is all ones, and the
  take is the plain gather at the wrapped indices.
-/
import proofs.«412770_j80290118631498_3_alg».proof.Proof.HostTerms
import Idealize.ShloMosaic.Lib.ReduceAll
import Idealize.ShloMosaic.Lib.StableHlo.Predicate
import Idealize.ShloMosaic.Lib.IdealHost
import Idealize.ShloMosaic.Lib.Pipeline.Value

noncomputable section

namespace Cert.MeanConv

open Idealize.ShloMosaic Idealize.ShloMosaic.ValueIdx

/-- The signed readings of the three literals. -/
theorem toInt_lo : (4294867296#32 : BitVec 32).toInt = -100000 := by decide
theorem toInt_hi : (100000#32 : BitVec 32).toInt = 100000 := by decide
theorem toInt_top : (99999#32 : BitVec 32).toInt = 99999 := by decide
theorem toInt_zero : (0#32 : BitVec 32).toInt = 0 := by decide

/-- A source index in `[-100000, 100000)`, wrapped, lies in `[0, 99999]`: a negative one gains 100000 without leaving the
    32-bit range, the others are already there. -/
theorem wrapped_in_range (c : BitVec 32)
    (h : IntOp.andi (IntOp.cmpi .sge c 4294867296#32) (IntOp.cmpi .slt c 100000#32) = 1#1) :
    IntOp.andi (IntOp.cmpi .sge (Scalar.select (IntOp.cmpi .slt c 0#32) (IntOp.addi c 100000#32) c) 0#32)
      (IntOp.cmpi .sle (Scalar.select (IntOp.cmpi .slt c 0#32) (IntOp.addi c 100000#32) c) 99999#32) = 1#1 := by
  obtain ⟨h1, h2⟩ := IntOp.andi_eq_one.1 h
  simp only [IntOp.cmpi, StableHlo.Predicate.ofBool_eq_one_iff, BitVec.sle, BitVec.slt, decide_eq_true_eq,
    toInt_lo, toInt_hi] at h1 h2
  apply IntOp.andi_eq_one.2
  unfold Scalar.select
  by_cases hneg : c.toInt < 0
  · have hc : IntOp.cmpi .slt c 0#32 = 1 := by
      simp only [IntOp.cmpi, BitVec.slt, toInt_zero]; simp [hneg]
    rw [if_pos hc]
    have e3 : (IntOp.addi c 100000#32).toInt = c.toInt + 100000 := by
      unfold IntOp.addi
      rw [BitVec.toInt_add, toInt_hi]
      unfold Int.bmod
      dsimp only
      simp only [show ((2 ^ 32 : Nat) : Int) = 4294967296 by norm_num]
      split <;> omega
    simp only [IntOp.cmpi, StableHlo.Predicate.ofBool_eq_one_iff, BitVec.sle, decide_eq_true_eq, e3, toInt_zero, toInt_top]
    omega
  · have hc : ¬ IntOp.cmpi .slt c 0#32 = 1 := by
      simp only [IntOp.cmpi, BitVec.slt, toInt_zero]; simp [hneg]
    rw [if_neg hc]
    simp only [IntOp.cmpi, StableHlo.Predicate.ofBool_eq_one_iff, BitVec.sle, decide_eq_true_eq, toInt_zero, toInt_top]
    omega

/-- A reduction by `and` of an array of ones from a one is one. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl]
  have key : ∀ (L : List s.Idx) (a : BitVec 1), a = 1#1 → L.foldl (fun r i => IntOp.andi r (x i)) a = 1#1 := by
    intro L
    induction L with
    | nil => intro a ha; exact ha
    | cons i L ih =>
      intro a ha
      rw [List.foldl_cons]
      apply ih
      rw [ha, hx i]
      decide
  exact key _ _ (hinit _)

/-- A select under a mask of ones is its first branch. -/
theorem select_of_all_one {s : Shape} {α : Type} (c : IVec s 1) (a b : s.Idx → α) (hc : ∀ i, c i = 1#1) :
    select c a b = a := by
  funext i
  show Scalar.select (c i) (a i) (b i) = a i
  rw [hc i]
  exact select_one _ _

/-! ## The take over in-range sources is the gather -/

open Cert.KernelIdeal Cert.KernelIdeal.Gen Cert.KernelIdeal.HostTerms

/-- Every edge passes the range test when every source lies in `[-100000, 100000)`. -/
theorem inRange_all_one (col : IVec S1600000 32)
    (hcol : ∀ e, IntOp.andi (IntOp.cmpi .sge (col e) 4294867296#32) (IntOp.cmpi .slt (col e) 100000#32) = 1#1)
    (j : S1600000.Idx) : inRange col j = 1#1 := by
  unfold inRange
  refine reduce_andi_of_all_one _ _ _ _ (fun i => ?_) (fun _ => rfl) j
  obtain ⟨e', he⟩ : ∃ e' : S1600000.Idx, starts col i = wrapped col e' := ⟨_, rfl⟩
  show IntOp.andi (IntOp.cmpi .sge (starts col i) 0#32) (IntOp.cmpi .sle (starts col i) 99999#32) = 1#1
  rw [he]
  exact wrapped_in_range (col e') (hcol e')

/-- So no row is replaced by the fill value: the take is the gather at the wrapped sources. -/
theorem taken_eq_gathered {F : FTy → Type} [FloatOps F] (x : FVec F S100000x128 .f32) (col : IVec S1600000 32)
    (hcol : ∀ e, IntOp.andi (IntOp.cmpi .sge (col e) 4294867296#32) (IntOp.cmpi .slt (col e) 100000#32) = 1#1) :
    taken x col = gathered x col := by
  unfold taken
  refine select_of_all_one _ _ _ (fun i => ?_)
  show inRange col _ = 1#1
  exact inRange_all_one col hcol _

end Cert.MeanConv

end
-- ==== Proof.PreDecode.lean ====
/-
  What the precondition says of the edge list: every source node lies in `[-100000, 100000)`.  The precondition is a
  conjunction of `all`s; its last conjunct reduces, by `and`, the per-edge test `(-100000 ≤ source) ∧ (source < 100000)`
  over all edges, so when the whole is one, the test is one at every edge.
-/
import proofs.«412770_j80290118631498_3_alg».proof.Pre_finite_inputs
import proofs.«412770_j80290118631498_3_alg».proof.Proof.Gen.Pre_finite_inputs
import proofs.«412770_j80290118631498_3_alg».proof.Proof.HostTerms
import Idealize.ShloMosaic.Lib.ReduceAll
import Idealize.ShloMosaic.Lib.ValueIdx

noncomputable section

namespace Cert.MeanConv

open Idealize.ShloMosaic

instance subsingleton_scalar_idx : Subsingleton Cert.Pre_finite_inputs.S_.Idx := ⟨fun a b => funext fun d => d.elim0⟩

/-- Under the precondition every edge's source node lies in `[-100000, 100000)`. -/
theorem cols_in_range {F : FTy → Type} [FloatOps F] (x0 : FVec F Cert.Pre_finite_inputs.S100000x128 .f32)
    (x1 : IVec Cert.Pre_finite_inputs.S2x1600000 32) (x2 : FVec F Cert.Pre_finite_inputs.S128x128 .f32)
    (x3 : FVec F Cert.Pre_finite_inputs.S128 .f32) (x4 : FVec F Cert.Pre_finite_inputs.S128x128 .f32)
    (x5 : FVec F Cert.Pre_finite_inputs.S128 .f32)
    (h : Cert.Pre_finite_inputs.fn (F := F) x0 x1 x2 x3 x4 x5 = fun _ => 1#1) (e : Cert.KernelIdeal.S1600000.Idx) :
    IntOp.andi (IntOp.cmpi .sge (Cert.KernelIdeal.HostTerms.cols x1 e) 4294867296#32)
      (IntOp.cmpi .slt (Cert.KernelIdeal.HostTerms.cols x1 e) 100000#32) = 1#1 := by
  have h0 := congrFun h ValueIdx.ix0
  dsimp only [Cert.Pre_finite_inputs.fn, Cert.Pre_finite_inputs.fn_part1] at h0
  have h33 := (IntOp.andi_eq_one.1 h0).2
  exact Host.reduce_andi_all _ _ _ _ _ h33 e

end Cert.MeanConv

end
-- ==== Proof.Bridge.lean ====
/-
  The two programs' aggregate rows and in-degrees are the same terms: both scatter-add, at the edges' destinations, the
  feature rows gathered at the wrapped sources (the reference) or taken there in fill mode (the kernel), and ones.  Under
  the precondition every source is in range, the take is the gather, and the two aggregates coincide.
-/
import proofs.«412770_j80290118631498_3_alg».proof.Proof.Gen.ReferenceIdeal.Read
import proofs.«412770_j80290118631498_3_alg».proof.Proof.KernelValue
import proofs.«412770_j80290118631498_3_alg».proof.Proof.Take
import proofs.«412770_j80290118631498_3_alg».proof.Proof.PreDecode

noncomputable section

namespace Cert.Bridge

open Idealize.ShloMosaic Idealize.ShloMosaic.TcCoe Idealize.SL.Sem
open Cert.KernelIdeal.HostTerms

/-- The reference's in-degrees are the kernel's. -/
theorem ref_deg (x1 : IVec Cert.KernelIdeal.S2x1600000 32) :
    Cert.ReferenceIdeal.Read.val_main_v17 (F := Ideal) x1 = degOf (F := Ideal) (rows x1) := rfl

/-- The reference's aggregate rows are the scatter-add of the gathered feature rows. -/
theorem ref_agg (x0 : FVec Ideal Cert.KernelIdeal.S100000x128 .f32) (x1 : IVec Cert.KernelIdeal.S2x1600000 32) :
    Cert.ReferenceIdeal.Read.val_main_v13 (F := Ideal) x0 x1 = aggOf (gathered x0 (cols x1)) (rows x1) := rfl

open Cert.KernelIdeal Cert.KernelIdeal.KValue in
/-- Under the precondition, the layer's output of the reference's aggregate and degrees is the kernel's result. -/
theorem out_eq (m : (ℓ : Loc nD τ sig) → Buf (Elt Ideal) ℓ) (c : Dev nD)
    (hpre : Cert.Pre_finite_inputs.fn (F := Ideal) (X m c) (E m c) (WL m c) (BL m c) (WR m c) (BR m c) = fun _ => 1#1) :
    Cert.MeanConv.out (Cert.ReferenceIdeal.Read.val_main_v13 (F := Ideal) (X m c) (E m c))
        (Cert.ReferenceIdeal.Read.val_main_v17 (F := Ideal) (E m c)) (X m c) (WL m c) (BL m c) (WR m c) (BR m c)
      = G m c := by
  unfold G
  rw [ref_deg, ref_agg,
    ← Cert.MeanConv.taken_eq_gathered (X m c) (cols (E m c)) (Cert.MeanConv.cols_in_range _ _ _ _ _ _ hpre)]

end Cert.Bridge

end
-- ==== Proof.lean ====
/-
  A mean-aggregation graph convolution on 100000 nodes with 128 features and 1600000 edges: each node's output is
  `W_l · mean(in-neighbours' features) + b_l + W_r · own features + b_r`, the mean a sum over the in-edges divided by the
  in-degree clamped below by one.

  The kernel gathers the source rows in fill mode, scatter-adds them and the degrees on the host, and fuses the rest in one
  region: per block of 5000 nodes it scales the aggregate by the reciprocal clamped degree, lays the features beside it and
  multiplies the 256-wide row by the stacked transposed weights, adding the summed biases.  The reference divides, multiplies
  by each weight matrix separately and adds each bias in turn.  Over the extended reals the two agree entry by entry
  (`MeanConv.fused_row`): the clamped degree is at least one, so dividing by it is multiplying by its reciprocal; a sum of
  256 terms is the sum of its halves; sums commute and associate.  No finiteness is used.

  The gather is where the programs differ as printed: the kernel replaces the row of an edge whose wrapped source falls
  outside `[0, 99999]` by a fill value, the reference clamps the index.  The precondition asks every source to lie in
  `[-100000, 100000)` — the indices that index the feature array, negative ones wrapping — and then the fill never happens
  (`MeanConv.taken_eq_gathered`).

  The three frames are the generated ones (the reference's is its generated run with the result dropped); the
  idealization rewrote nothing, so `preserves` is trivial.
-/
import proofs.«412770_j80290118631498_3_alg».proof.Defs
import proofs.«412770_j80290118631498_3_alg».proof.Proof.Gen.Kernel
import proofs.«412770_j80290118631498_3_alg».proof.Proof.Gen.Kernel.Skeleton
import proofs.«412770_j80290118631498_3_alg».proof.Proof.Gen.Kernel.Launch
import proofs.«412770_j80290118631498_3_alg».proof.Proof.Gen.Kernel.Points
import proofs.«412770_j80290118631498_3_alg».proof.Proof.Gen.Kernel.Frame
import proofs.«412770_j80290118631498_3_alg».proof.Proof.Gen.KernelIdeal
import proofs.«412770_j80290118631498_3_alg».proof.Proof.Gen.KernelIdeal.Skeleton
import proofs.«412770_j80290118631498_3_alg».proof.Proof.Gen.KernelIdeal.Launch
import proofs.«412770_j80290118631498_3_alg».proof.Proof.Gen.KernelIdeal.Points
import proofs.«412770_j80290118631498_3_alg».proof.Proof.Gen.KernelIdeal.Frame
import proofs.«412770_j80290118631498_3_alg».proof.Proof.Gen.ReferenceIdeal
import proofs.«412770_j80290118631498_3_alg».proof.Proof.Gen.Pre_finite_inputs
import proofs.«412770_j80290118631498_3_alg».proof.Proof.Gen.KernelIdeal.Value
import proofs.«412770_j80290118631498_3_alg».proof.Proof.Gen.ReferenceIdeal.Run
import proofs.«412770_j80290118631498_3_alg».proof.Proof.Gen.ReferenceIdeal.Read
import proofs.«412770_j80290118631498_3_alg».proof.Proof.KernelValue
import proofs.«412770_j80290118631498_3_alg».proof.Proof.RefValue
import proofs.«412770_j80290118631498_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's output of the same aggregate rows and in-degrees. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _ _ _ _).trans ?_
  rw [Cert.ReferenceIdeal.RefValue.result_eq, (hagree c).1, (hagree c).2.1, (hagree c).2.2.1, (hagree c).2.2.2.1,
    (hagree c).2.2.2.2.1, (hagree c).2.2.2.2.2]
  exact Cert.Bridge.out_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
